-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel

variable [Facts]

def fn {F : FTy → Type} [FloatOps F] (main_arg0 : FVec F S16384x64 .f32) (main_arg1 : FVec F S16384x64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S16384x64 .f32 := Host.absf main_arg1
  let main_cst_0 : FVec F S_ .f32 := constant S_ .f32 0x7F800000#32
  let main_v5 : FVec F S16384x64 .f32 := broadcastInDim S16384x64 ![] bcast_S_S16384x64 main_cst_0
  let main_v6 : IVec S16384x64 1 := cmpf .olt main_v4 main_v5
  let main_c_1 : IVec S_ 1 := constantI S_ 1 1#1
  let main_v7 : IVec S_ 1 := (fun x v => Host.reduce IntOp.andi x v reducesTo_S16384x64_S_d0_1 h_S_) main_v6 main_c_1
  let main_v8 : IVec S_ 1 := andi main_v3 main_v7
  main_v8
-- ==== Kernel.lean ====
abbrev S16384x64 : Shape := ⟨2, ![16384, 64]⟩
abbrev S16384x16384 : Shape := ⟨2, ![16384, 16384]⟩
abbrev S2048x64 : Shape := ⟨2, ![2048, 64]⟩
abbrev S1024x64 : Shape := ⟨2, ![1024, 64]⟩
abbrev S2048x1024 : Shape := ⟨2, ![2048, 1024]⟩
abbrev S2048 : Shape := ⟨1, ![2048]⟩
abbrev S2048x1 : Shape := ⟨2, ![2048, 1]⟩
abbrev S1024 : Shape := ⟨1, ![1024]⟩
abbrev S1024x1 : Shape := ⟨2, ![1024, 1]⟩
abbrev S1x1024 : Shape := ⟨2, ![1, 1024]⟩
abbrev S64x1024 : Shape := ⟨2, ![64, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x64, .f32⟩
  | .hbm, ⟨1, _⟩ => ⟨S16384x64, .f32⟩
  | .hbm, ⟨2, _⟩ => ⟨S16384x16384, .f32⟩
  | .local _ .vmem, ⟨0, _⟩ => ⟨S2048x64, .f32⟩
  | .local _ .vmem, ⟨1, _⟩ => ⟨S2048x64, .f32⟩
  | .local _ .vmem, ⟨2, _⟩ => ⟨S1024x64, .f32⟩
  | .local _ .vmem, ⟨3, _⟩ => ⟨S1024x64, .f32⟩
  | .local _ .vmem, ⟨4, _⟩ => ⟨S2048x1024, .f32⟩
  | .local _ .vmem, ⟨5, _⟩ => ⟨S2048x1024, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S2048x64_S2048x64_0_0 : ∀ a, (![0, 0] : Fin 2 → Nat) a + S2048x64.size a ≤ S2048x64.size a
  h_S2048x64 : 0 < S2048x64.numel
  inb_S1024x64_S1024x64_0_0 : ∀ a, (![0, 0] : Fin 2 → Nat) a + S1024x64.size a ≤ S1024x64.size a
  h_S1024x64 : 0 < S1024x64.numel
  reduces_S2048x64_S2048 : S2048x64.Reduces [1] S2048
  shapeCasts_S2048_S2048x1 : S2048.ShapeCasts S2048x1
  reduces_S1024x64_S1024 : S1024x64.Reduces [1] S1024
  shapeCasts_S1024_S1024x1 : S1024.ShapeCasts S1024x1
  transposes_S1024x1_p1_0_S1x1024 : S1024x1.Transposes [1, 0] S1x1024
  transposes_S1024x64_p1_0_S64x1024 : S1024x64.Transposes [1, 0] S64x1024
  broadcasts_S2048x1_S2048x1024 : S2048x1.Broadcasts S2048x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  dot_S2048x64_S64x1024_S2048x1024_1_0_0_1_n_n_wf : DotDims.WF S2048x64 S64x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S16384x64.size a
  hwx0_0 : ∀ i : grid0.Coords, EltTy.bits .f32 = 32 ∨ (Rect.block (s := S16384x64) S2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S16384x64.size a
  hwx0_1 : ∀ i : grid0.Coords, EltTy.bits .f32 = 32 ∨ (Rect.block (s := S16384x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S16384x16384.size a
  hwx0_2 : ∀ i : grid0.Coords, EltTy.bits .f32 = 32 ∨ (Rect.block (s := S16384x16384) S2048x1024.size (cc0_transform_2 i) (hinb0_2 i)).WholeWords (EltTy.packing .f32)

variable [Facts₀]

def dot_S2048x64_S64x1024_S2048x1024_1_0_0_1_n_n : DotDims S2048x64 S64x1024 S2048x1024 where
  lhsContracting := [1]
  rhsContracting := [0]
  lhsNonContracting := [0]
  rhsNonContracting := [1]
  lhsBatch := []
  rhsBatch := []
  wf := dot_S2048x64_S64x1024_S2048x1024_1_0_0_1_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x64 : Shape := ⟨2, ![16384, 64]⟩
abbrev S_ : Shape := ⟨0, ![]⟩
abbrev S16384 : Shape := ⟨1, ![16384]⟩
abbrev S16384x16384 : Shape := ⟨2, ![16384, 16384]⟩
abbrev S16384x1 : Shape := ⟨2, ![16384, 1]⟩
abbrev S1x16384 : Shape := ⟨2, ![1, 16384]⟩

abbrev nBuf : Space → Nat
  | .hbm => 18
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x64, .f32⟩
  | .hbm, ⟨2, _⟩ => ⟨S16384x64, .f32⟩
  | .hbm, ⟨3, _⟩ => ⟨S_, .f32⟩
  | .hbm, ⟨4, _⟩ => ⟨S16384, .f32⟩
  | .hbm, ⟨5, _⟩ => ⟨S16384x64, .f32⟩
  | .hbm, ⟨6, _⟩ => ⟨S_, .f32⟩
  | .hbm, ⟨7, _⟩ => ⟨S16384, .f32⟩
  | .hbm, ⟨8, _⟩ => ⟨S16384x16384, .f32⟩
  | .hbm, ⟨9, _⟩ => ⟨S16384x1, .f32⟩
  | .hbm, ⟨10, _⟩ => ⟨S1x16384, .f32⟩
  | .hbm, ⟨11, _⟩ => ⟨S16384x16384, .f32⟩
  | .hbm, ⟨12, _⟩ => ⟨S16384x16384, .f32⟩
  | .hbm, ⟨13, _⟩ => ⟨S16384x16384, .f32⟩
  | .hbm, ⟨14, _⟩ => ⟨S_, .f32⟩
  | .hbm, ⟨15, _⟩ => ⟨S16384x16384, .f32⟩
  | .hbm, ⟨16, _⟩ => ⟨S16384x16384, .f32⟩
  | .hbm, ⟨17, _⟩ => ⟨S16384x16384, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S16384x64_S16384_d1 : S16384x64.ReducesTo [1] S16384
  h_S_ : 0 < S_.numel
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384x16384 : S_.BroadcastsInDim S16384x16384 (![] : Fin 0 → Fin S16384x16384.rank)
  dot_S16384x64_S16384x64_S16384x16384_1_1_0_0_n_n_wf : DotDims.WF S16384x64 S16384x64 S16384x16384 [1] [1] [0] [0] [] []

variable [Facts₀]

def dot_S16384x64_S16384x64_S16384x16384_1_1_0_0_n_n : DotDims S16384x64 S16384x64 S16384x16384 where
  lhsContracting := [1]
  rhsContracting := [1]
  lhsNonContracting := [0]
  rhsNonContracting := [0]
  lhsBatch := []
  rhsBatch := []
  wf := dot_S16384x64_S16384x64_S16384x16384_1_1_0_0_n_n_wf

class Facts : Prop extends Facts₀ where

variable [Facts]
-- ==== Proof.Dist.lean ====
/-
  Pairwise squared distances by the product identity.

  For two families of points `s` and `t`, 16384 rows of 64 coordinates each, the table of squared distances is written
  `d(i, j) = |s_i|^2 + |t_j|^2 - 2 <s_i, t_j>`: two squared lengths, one inner product, one subtraction. This file states
  that table as one function of the two families, entry by entry, over the extended reals, together with the two sums it
  is built from. Nothing here is expanded or regrouped: the squared lengths are added first, the doubled inner product is
  taken away afterwards, and the factor two stays the word `0x40000000` read as a single-precision pattern.
-/
import Idealize.ShloMosaic.PureOps.Ideal
import Idealize.ShloMosaic.Lib.ValueIdx

noncomputable section

namespace Cert.PairDist

open Idealize.ShloMosaic Idealize.ShloMosaic.ValueIdx
open scoped BigOperators

/-- A family of points: 16384 rows, 64 coordinates a row. -/
abbrev Pts : Shape := ⟨2, ![16384, 64]⟩
/-- The table: one entry for every pair (row of the first family, row of the second). -/
abbrev Pairs : Shape := ⟨2, ![16384, 16384]⟩

/-- The squared length of row `r`: the sum over the 64 coordinates of the coordinate times itself. -/
def sqLen (x : Pts.Idx → EReal) (r : Fin 16384) : EReal := ∑ k : Fin 64, x (ix2 r k) * x (ix2 r k)

/-- The inner product of row `i` of `s` with row `j` of `t`. -/
def inner (s t : Pts.Idx → EReal) (i j : Fin 16384) : EReal := ∑ k : Fin 64, s (ix2 i k) * t (ix2 j k)

/-- The factor two, as the single-precision pattern both programs spell. -/
abbrev two : EReal := Ideal.ofBits .f32 0x40000000#32

/-- The table of squared distances: at the pair `(i, j)` the two squared lengths added, less twice the inner product. -/
def dist (s t : Pts.Idx → EReal) : Pairs.Idx → EReal := fun i =>
  (sqLen s (i 0) + sqLen t (i 1)) - two * inner s t (i 0) (i 1)

/-- The table at a pair given by its two coordinates. -/
theorem dist_ix2 (s t : Pts.Idx → EReal) (i j : Fin 16384) :
    dist s t (ix2 i j) = (sqLen s i + sqLen t j) - two * inner s t i j := rfl

end Cert.PairDist

end
-- ==== Proof.RefDist.lean ====
/-
  The reference computes the table of squared distances.

  The reference squares each family entry by entry, sums every row of 64 squares from the initial value zero, takes the
  inner products of the rows of `s` with the rows of `t` in one contraction over the 64 coordinates, lays the two vectors
  of squared lengths out as a column and as a row, adds them, and takes away the inner products doubled. Read at the pair
  `(i, j)` this is `(0 + |s_i|^2) + (0 + |t_j|^2) - 2 <s_i, t_j>`: the column of squared lengths is read at row `i`, the row
  of squared lengths at column `j`, and the contraction pairs row `i` of `s` with row `j` of `t`. The zero a sum starts
  from is the additive unit of the extended reals, so the value is `Cert.PairDist.dist s t (i, j)`.
-/
import proofs.«147983_j54030688584305_1_alg».proof.Proof.Gen.ReferenceIdeal.Read
import proofs.«147983_j54030688584305_1_alg».proof.Proof.Dist
import Idealize.ShloMosaic.PureOps.Ideal.Laws

noncomputable section

namespace Cert.ReferenceIdeal.RefDist

open Cert.ReferenceIdeal Cert.ReferenceIdeal.Read Idealize.ShloMosaic Idealize.ShloMosaic.ValueIdx Cert.PairDist
open scoped BigOperators

/-- Through the two broadcasts and the row sum, the first family's squared lengths are read along row `i 0`. -/
theorem along_s (i : S16384x16384.Idx) (k : Fin 64) : idx_main_v1 (idx_main_v5 (idx_main_v7 i)) k = ix2 (i 0) k :=
  funext fun a => Fin.ext (by match a with | ⟨0, _⟩ => rfl | ⟨1, _⟩ => rfl)

/-- Through the two broadcasts and the row sum, the second family's squared lengths are read along row `i 1`. -/
theorem along_t (i : S16384x16384.Idx) (k : Fin 64) : idx_main_v3 (idx_main_v6 (idx_main_v8 i)) k = ix2 (i 1) k :=
  funext fun a => Fin.ext (by match a with | ⟨0, _⟩ => rfl | ⟨1, _⟩ => rfl)

/-- The contraction's left factor at the pair `i` runs along row `i 0` of the first family. -/
theorem left_row (i : S16384x16384.Idx) (k : Fin 64) : lidx_main_v4 i k = ix2 (i 0) k :=
  funext fun a => Fin.ext (by match a with | ⟨0, _⟩ => rfl | ⟨1, _⟩ => rfl)

/-- The contraction's right factor at the pair `i` runs along row `i 1` of the second family. -/
theorem right_row (i : S16384x16384.Idx) (k : Fin 64) : ridx_main_v4 i k = ix2 (i 1) k :=
  funext fun a => Fin.ext (by match a with | ⟨0, _⟩ => rfl | ⟨1, _⟩ => rfl)

/-- The reference's result, as a function of the two families, is the table of squared distances. -/
theorem result_eq (s t : (⟨S16384x64, .f32⟩ : BufTy).Contents (Elt Ideal)) :
    val_main_v12 (F := Ideal) s t = dist s t := by
  funext i
  rw [val_main_v12_apply, val_main_v9_apply, val_main_v11_apply, val_main_v7_apply, val_main_v5_apply, val_main_v1_apply,
    val_main_v8_apply, val_main_v6_apply, val_main_v3_apply, val_main_v10_apply, val_main_v4_apply]
  simp only [val_main_v0_apply, val_main_v2_apply, val_main_cst_apply, val_main_cst_0_apply, val_main_cst_1_apply,
    along_s, along_t, left_row, right_row, Ideal.ofBits_def, Ideal.addf_def, Ideal.subf_def, Ideal.mulf_def,
    Ideal.ofBits_zero_f32, zero_add]
  rfl

end Cert.ReferenceIdeal.RefDist

end
-- ==== Proof.Tile.lean ====
/-
  One tile of the table, read at a pair.

  The kernel body receives 2048 rows of the first family (`x`) and 1024 rows of the second (`y`) and writes the
  2048 x 1024 tile of the table that belongs to them. It squares `x` entry by entry and sums each row into a vector of 2048
  squared lengths, laid out as a column; does the same for `y` and turns the resulting column of 1024 squared lengths into a
  row; multiplies `x` by the transpose of `y` into a zero accumulator, which at the pair `(p, q)` is the sum over the 64
  coordinates of `x p k * y q k`; spreads the column along the rows and the row along the columns, adds them, and takes
  away the product doubled. So the tile's entry at `(p, q)` is `(|x_p|^2 + |y_q|^2) - 2 <x_p, y_q>` with the sums in exactly
  that grouping. The layout steps move values and change none.
-/
import proofs.«147983_j54030688584305_1_alg».proof.Proof.Gen.KernelIdeal.Skeleton
import proofs.«147983_j54030688584305_1_alg».proof.Proof.Dist
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tile

open Cert.KernelIdeal Cert.KernelIdeal.Gen Idealize.ShloMosaic Idealize.ShloMosaic.ValueIdx
open scoped BigOperators

/-! ## Three layout steps read at a pair -/

section Layout
variable {α : Type}

/-- A vector of `a` entries laid out as a column of height `a`: the entry in row `p` is the vector's entry `p`. -/
theorem column_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column of height `a` repeated across `b` columns: the entry at `(p, c)` is the column's entry in row `p`. -/
theorem column_spread_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    exact (if_pos rfl).symm

end Layout

/-! ## The row sums and the product read at a pair -/

/-- The sum along each row of a matrix with `d` columns, started from the zero word: at row `p` it is the sum over the
    `d` columns of that row's entries. -/
theorem rowSum_apply {a d : ℕ} (x : FVec Ideal ⟨2, ![a, d]⟩ .f32) (h : (⟨2, ![a, d]⟩ : Shape).Reduces [1] ⟨1, ![a]⟩)
    (hφ : FKind.Formats .f32) (hacc : (0x00000000#32 : BitVec 32) = FKind.add.neutral .f32 hφ) (p : Fin a) :
    multiReduction .add [1] ⟨1, ![a]⟩ x 0x00000000#32 h hφ hacc (ix1 p) = ∑ k : Fin d, x (ix2 p k) := by
  refine (Ideal.multiReduction_add_single x 0x00000000#32 h hφ hacc (ix1 p)).trans ?_
  refine Finset.sum_congr rfl fun k _ => congrArg x (funext fun ax => Fin.ext ?_)
  match ax with
  | ⟨0, _⟩ => rfl
  | ⟨1, _⟩ => rfl

/-- The product's left factor keeps the row of the pair; -/
theorem lhs_row (i : S2048x1024.Idx) (q : dot_S2048x64_S64x1024_S2048x1024_1_0_0_1_n_n.contr.Idx) :
    (dot_S2048x64_S64x1024_S2048x1024_1_0_0_1_n_n.lhsIdx i q 0).val = (i 0).val := by
  unfold DotDims.lhsIdx
  rw [dif_neg (show ¬(0 : Fin S2048x64.rank) ∈ dot_S2048x64_S64x1024_S2048x1024_1_0_0_1_n_n.lhsBatch by decide), dif_pos (show (0 : Fin S2048x64.rank) ∈ dot_S2048x64_S64x1024_S2048x1024_1_0_0_1_n_n.lhsNonContracting by decide)]
  rfl
/-- its column is the summation index; -/
theorem lhs_col (i : S2048x1024.Idx) (q : dot_S2048x64_S64x1024_S2048x1024_1_0_0_1_n_n.contr.Idx) :
    (dot_S2048x64_S64x1024_S2048x1024_1_0_0_1_n_n.lhsIdx i q 1).val = (q ⟨0, by decide⟩).val :=
  dot_S2048x64_S64x1024_S2048x1024_1_0_0_1_n_n.lhsIdx_val_of_single rfl i q
/-- the right factor's row is the summation index, -/
theorem rhs_row (i : S2048x1024.Idx) (q : dot_S2048x64_S64x1024_S2048x1024_1_0_0_1_n_n.contr.Idx) :
    (dot_S2048x64_S64x1024_S2048x1024_1_0_0_1_n_n.rhsIdx i q 0).val = (q ⟨0, by decide⟩).val :=
  dot_S2048x64_S64x1024_S2048x1024_1_0_0_1_n_n.rhsIdx_val_of_single rfl i q
/-- and its column the column of the pair. -/
theorem rhs_col (i : S2048x1024.Idx) (q : dot_S2048x64_S64x1024_S2048x1024_1_0_0_1_n_n.contr.Idx) :
    (dot_S2048x64_S64x1024_S2048x1024_1_0_0_1_n_n.rhsIdx i q 1).val = (i 1).val := by
  unfold DotDims.rhsIdx
  rw [dif_neg (show ¬(1 : Fin S64x1024.rank) ∈ dot_S2048x64_S64x1024_S2048x1024_1_0_0_1_n_n.rhsBatch by decide), dif_pos (show (1 : Fin S64x1024.rank) ∈ dot_S2048x64_S64x1024_S2048x1024_1_0_0_1_n_n.rhsNonContracting by decide)]
  rfl

/-- The matrix product into a zero accumulator, at the pair `(p, q)`: the sum over the 64 inner positions of the left
    factor's row `p` against the right factor's column `q`. -/
theorem product_apply (x : FVec Ideal S2048x64 .f32) (w : FVec Ideal S64x1024 .f32) (p : Fin 2048) (q : Fin 1024) :
    matmul dot_S2048x64_S64x1024_S2048x1024_1_0_0_1_n_n none x w (constant (F := Ideal) S2048x1024 .f32 0x00000000#32) (ix2 p q)
      = ∑ k : Fin 64, x (ix2 p k) * w (ix2 k q) := by
  simp only [matmul]
  rw [Ideal.matmul_constant_zero_apply, ← Equiv.sum_comp (ValueIdx.contrEquiv1 dot_S2048x64_S64x1024_S2048x1024_1_0_0_1_n_n 64 rfl rfl).symm]
  refine Finset.sum_congr rfl fun k _ => ?_
  have hk := ValueIdx.contrEquiv1_symm_val dot_S2048x64_S64x1024_S2048x1024_1_0_0_1_n_n 64 rfl rfl k
  have el : dot_S2048x64_S64x1024_S2048x1024_1_0_0_1_n_n.lhsIdx (ix2 p q) ((ValueIdx.contrEquiv1 dot_S2048x64_S64x1024_S2048x1024_1_0_0_1_n_n 64 rfl rfl).symm k) = ix2 p k := funext fun a => Fin.ext (by
    match a with
    | ⟨0, _⟩ => exact lhs_row _ _
    | ⟨1, _⟩ => exact (lhs_col _ _).trans hk)
  have er : dot_S2048x64_S64x1024_S2048x1024_1_0_0_1_n_n.rhsIdx (ix2 p q) ((ValueIdx.contrEquiv1 dot_S2048x64_S64x1024_S2048x1024_1_0_0_1_n_n 64 rfl rfl).symm k) = ix2 k q := funext fun a => Fin.ext (by
    match a with
    | ⟨0, _⟩ => exact (rhs_row _ _).trans hk
    | ⟨1, _⟩ => exact rhs_col _ _)
  rw [el, er]

/-! ## The tile -/

/-- The body's stored value at the pair `(p, q)` of its tile: the squared length of row `p` of `x` plus that of row `q` of
    `y`, less twice their inner product. -/
theorem tile_apply (x : Vec Ideal S2048x64 .f32) (y : Vec Ideal S1024x64 .f32) (p : Fin 2048) (q : Fin 1024) :
    k0_pay1 (F := Ideal) x y (ix2 p q)
      = ((∑ k : Fin 64, x (ix2 p k) * x (ix2 p k)) + ∑ k : Fin 64, y (ix2 q k) * y (ix2 q k))
        - Cert.PairDist.two * ∑ k : Fin 64, x (ix2 p k) * y (ix2 q k) := by
  unfold k0_pay1
  dsimp only
  rw [subf_apply, addf_apply, mulf_apply, broadcast_apply, column_spread_apply, column_apply,
    broadcastTo_1b_ab_apply, transpose_ix2_apply, column_apply, product_apply]
  refine congrArg₂ (· - ·) (congrArg₂ (· + ·) ?_ ?_) (congrArg (_ * ·) ?_)
  · exact rowSum_apply (mulf x x) _ _ _ p
  · exact rowSum_apply (mulf y y) _ _ _ q
  · exact Finset.sum_congr rfl fun k _ => congrArg (x (ix2 p k) * ·) (transpose_ix2_apply y _ k q)

/-! ## The tile inside the table -/

/-- When `x` holds the rows of `s` from row `R` on and `y` the rows of `t` from row `C` on, the body's value at the
    place `j` of its tile is the table's entry at the pair `i` that lies `R` rows and `C` columns further: the three sums
    of the tile are the three sums of the table, term by term. -/
theorem tile_in_table (s t : Cert.PairDist.Pts.Idx → EReal) (x : Vec Ideal S2048x64 .f32) (y : Vec Ideal S1024x64 .f32)
    (R C : ℕ)
    (hx : ∀ (p : Fin 2048) (k : Fin 64) (I : Fin 16384), I.val = R + p.val → x (ix2 p k) = s (ix2 I k))
    (hy : ∀ (q : Fin 1024) (k : Fin 64) (J : Fin 16384), J.val = C + q.val → y (ix2 q k) = t (ix2 J k))
    (j : S2048x1024.Idx) (i : Cert.PairDist.Pairs.Idx)
    (h0 : (i 0).val = R + (j 0).val) (h1 : (i 1).val = C + (j 1).val) :
    k0_pay1 (F := Ideal) x y j = Cert.PairDist.dist s t i := by
  obtain ⟨p, q, rfl⟩ : ∃ (p : Fin 2048) (q : Fin 1024), j = ix2 p q := ⟨j 0, j 1, eq_ix2 j⟩
  obtain ⟨I, J, rfl⟩ : ∃ (I J : Fin 16384), i = ix2 I J := ⟨i 0, i 1, eq_ix2 i⟩
  rw [tile_apply, Cert.PairDist.dist_ix2]
  unfold Cert.PairDist.sqLen Cert.PairDist.inner
  simp only [fun k => hx p k I h0, fun k => hy q k J h1]

end Cert.KernelIdeal.Tile

end
-- ==== Proof.Table.lean ====
/-
  From tiles to the whole table.

  The grid has 8 x 16 points. At the point with block indices `(a, b)` the body is handed rows `2048 a ... 2048 a + 2047`
  of the first family and rows `1024 b ... 1024 b + 1023` of the second, and what it writes back is the 2048 x 1024 tile
  of the result whose corner is `(2048 a, 1024 b)`. By the tile lemma that tile is the table of squared distances read
  through the tile's rectangle. Every pair `(i, j)` lies in exactly the tile `(i / 2048, j / 1024)`, so the tiles fill the
  result, which therefore ends holding the table.
-/
import proofs.«147983_j54030688584305_1_alg».proof.Proof.Gen.KernelIdeal.Value
import proofs.«147983_j54030688584305_1_alg».proof.Proof.Tile
import Idealize.ShloMosaic.Lib.Pipeline.Value

noncomputable section

namespace Cert.KernelIdeal.Table

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The body reads and writes its buffers from their first entry. -/
theorem origin : (![0, 0] : Fin 2 → Nat) = fun _ => 0 := funext fun a => by fin_cases a <;> rfl

/-- Where the blocks of a grid point sit: the first family's block is on the result tile's block row and starts at
    coordinate zero, the second family's block is on the result tile's block column and starts at coordinate zero, and
    the tile's block indices stay below 8 and 16. -/
theorem placement : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 7 ∧ win0_2.index t (1 : Fin 2) ≤ 15 :=
  (by decide +kernel : ∀ t : Fin grid0.N, _)

/-- Every one of the 8 x 16 tiles is some grid point's. -/
theorem every_tile : ∀ (a : Fin 8) (b : Fin 16), ∃ t : Fin cfg0.N, win0_2.index t = ![a.val, b.val] :=
  (by decide +kernel : ∀ (a : Fin 8) (b : Fin 16), ∃ t : Fin grid0.N, win0_2.index t = ![a.val, b.val])

/-- The two families as the region finds them, and the two blocks a grid point is handed. -/
abbrev sAll (c : Dev nD) : Cert.PairDist.Pts.Idx → EReal := V m c main_arg0
abbrev tAll (c : Dev nD) : Cert.PairDist.Pts.Idx → EReal := V m c main_arg1
abbrev sRows (c : Dev nD) (t : Fin cfg0.N) : Vec Ideal S2048x64 .f32 := iblk m c 0 t
abbrev tRows (c : Dev nD) (t : Fin cfg0.N) : Vec Ideal S1024x64 .f32 := iblk m c 1 t

/-- Row `p` of the first block is row `2048 a + p` of the first family, `a` the tile's block row. -/
theorem sRows_apply (c : Dev nD) (t : Fin cfg0.N) (p : Fin 2048) (k : Fin 64) (I : Fin 16384)
    (hI : I.val = win0_2.index t (0 : Fin 2) * 2048 + p.val) : sRows m c t (ix2 p k) = sAll m c (ix2 I k) := by
  obtain ⟨e0, e1, -, -, -, -⟩ := placement t
  show V m c main_arg0 (((cfg0.win 0).blk t).view.emb (ix2 p k)) = V m c main_arg0 (ix2 I k)
  refine congrArg _ (funext fun a => Fin.ext ?_)
  match a with
  | ⟨0, _⟩ => show win0_0.index t (0 : Fin 2) * 2048 + 1 * p.val = I.val; omega
  | ⟨1, _⟩ => show win0_0.index t (1 : Fin 2) * 64 + 1 * k.val = k.val; omega

/-- Row `q` of the second block is row `1024 b + q` of the second family, `b` the tile's block column. -/
theorem tRows_apply (c : Dev nD) (t : Fin cfg0.N) (q : Fin 1024) (k : Fin 64) (J : Fin 16384)
    (hJ : J.val = win0_2.index t (1 : Fin 2) * 1024 + q.val) : tRows m c t (ix2 q k) = tAll m c (ix2 J k) := by
  obtain ⟨-, -, e2, e3, -, -⟩ := placement t
  show V m c main_arg1 (((cfg0.win 1).blk t).view.emb (ix2 q k)) = V m c main_arg1 (ix2 J k)
  refine congrArg _ (funext fun a => Fin.ext ?_)
  match a with
  | ⟨0, _⟩ => show win0_1.index t (0 : Fin 2) * 1024 + 1 * q.val = J.val; omega
  | ⟨1, _⟩ => show win0_1.index t (1 : Fin 2) * 64 + 1 * k.val = k.val; omega

/-- What a grid point writes back is its tile of the table of squared distances. -/
theorem flushed_eq (c : Dev nD) (t : Fin cfg0.N) :
    (dats m 0 c).flushed 2 t
      = ((cfg0.win 2).blk t).view.read (Elt Ideal) (Cert.PairDist.dist (sAll m c) (tAll m c)) := by
  rw [flushed2]
  unfold out0_2
  rw [View.canon_unit_zero origin]
  simp only [View.ld_unit_zero (S := S2048x64) origin, View.ld_unit_zero (S := S1024x64) origin]
  funext j
  show k0_pay1 (F := Ideal) (sRows m c t) (tRows m c t) ((cfg0.win 2).xinj (grid0.coords t) j)
    = Cert.PairDist.dist (sAll m c) (tAll m c) (((cfg0.win 2).blk t).view.emb j)
  refine Tile.tile_in_table (sAll m c) (tAll m c) (sRows m c t) (tRows m c t)
    (win0_2.index t (0 : Fin 2) * 2048) (win0_2.index t (1 : Fin 2) * 1024)
    (fun p k I hI => sRows_apply m c t p k I hI) (fun q k J hJ => tRows_apply m c t q k J hJ) _ _ ?_ ?_
  · show win0_2.index t (0 : Fin 2) * 2048 + 1 * (j 0).val = win0_2.index t (0 : Fin 2) * 2048 + (j 0).val; omega
  · show win0_2.index t (1 : Fin 2) * 1024 + 1 * (j 1).val = win0_2.index t (1 : Fin 2) * 1024 + (j 1).val; omega

/-- A pair is in a grid point's tile exactly when each coordinate is in the tile's range on its axis. -/
theorem mem_tile (t : Fin cfg0.N) (i : S16384x16384.Idx) :
    i ∈ ((cfg0.win 2).blk t).view.set ↔ ∀ a : Fin 2, win0_2.index t a * S2048x1024.size a ≤ (i a).val
      ∧ (i a).val < win0_2.index t a * S2048x1024.size a + S2048x1024.size a := by
  show i ∈ ((View.whole main_v0).slice (win0_2.rect t)).set ↔ _
  rw [View.set_slice_whole, Rect.mem_set_unit]
  exact Iff.rfl

/-- The tiles fill the result: the pair `(i, j)` is in the tile `(i / 2048, j / 1024)`. -/
theorem tiles_fill (i : S16384x16384.Idx) :
    ∃ t : Fin cfg0.N, (cfg0.win 2).flush t = true ∧ i ∈ ((cfg0.win 2).blk t).view.set := by
  have hi0 : (i 0).val < 16384 := (i 0).isLt
  have hi1 : (i 1).val < 16384 := (i 1).isLt
  obtain ⟨t, ht⟩ := every_tile ⟨(i 0).val / 2048, by omega⟩ ⟨(i 1).val / 1024, by omega⟩
  have q0 : win0_2.index t (0 : Fin 2) = (i 0).val / 2048 := congrFun ht 0
  have q1 : win0_2.index t (1 : Fin 2) = (i 1).val / 1024 := congrFun ht 1
  refine ⟨t, flush0_2 t, ?_⟩
  rw [mem_tile]
  intro a
  match a with
  | ⟨0, _⟩ =>
    show win0_2.index t (0 : Fin 2) * 2048 ≤ (i 0).val ∧ (i 0).val < win0_2.index t (0 : Fin 2) * 2048 + 2048
    omega
  | ⟨1, _⟩ =>
    show win0_2.index t (1 : Fin 2) * 1024 ≤ (i 1).val ∧ (i 1).val < win0_2.index t (1 : Fin 2) * 1024 + 1024
    omega

/-- So after the run the result array is the table of squared distances of the two families as launched. -/
theorem final (c : Dev nD) : (dats m 0 c).arrAt 2 cfg0.N
    = Cert.PairDist.dist (m ((c : Thread nD τ).loc main_arg0)) (m ((c : Thread nD τ).loc main_arg1)) :=
  (dats m 0 c).arrAt_eq_of_cover 2 (Cert.PairDist.dist (sAll m c) (tAll m c)) (fun t _ => flushed_eq m c t) tiles_fill

/-- The kernel's run, read: the result at the table of squared distances, the two families unchanged. -/
theorem run : θ_run defs (onTc (τ := τ) (main (F := Ideal))) ⟨m, fun _ => 0, ρ⟩ fun r => ∀ c : Dev nD,
      r.2.mem ((c : Thread nD τ).loc main_v0)
        = Cert.PairDist.dist (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Table

end
-- ==== Proof.lean ====
/-
  Pairwise squared distances: a tiled kernel against the one-shot formula.

  Both programs take two families of 16384 points in 64 coordinates and produce the 16384 x 16384 table
  `d(i, j) = |s_i|^2 + |t_j|^2 - 2 <s_i, t_j>`. The reference forms the two vectors of squared lengths and the full matrix
  of inner products at once. The kernel cuts the table into 8 x 16 tiles of 2048 x 1024 entries and computes each tile
  from the 2048 rows of `s` and the 1024 rows of `t` that meet in it, with the same three sums and the same grouping.

  Over the extended reals the two agree entry by entry with no algebra beyond `0 + a = a` (the reference starts each row
  sum from zero; the kernel's row sums and its product into a zero accumulator are plain sums): nothing is distributed
  or cancelled, so the finiteness of the inputs is never used. The pieces are `Proof/Dist.lean` (the table as one
  function), `Proof/RefDist.lean` (the reference computes it), `Proof/Tile.lean` (a tile's entry is the table's entry),
  `Proof/Table.lean` (the tiles fill the result). The idealization rewrote nothing, so the kernel and its idealization
  are one text and the fourth conjunct is trivial.
-/
import proofs.«147983_j54030688584305_1_alg».proof.Defs
import proofs.«147983_j54030688584305_1_alg».proof.Proof.Gen.Kernel
import proofs.«147983_j54030688584305_1_alg».proof.Proof.Gen.Kernel.Skeleton
import proofs.«147983_j54030688584305_1_alg».proof.Proof.Gen.Kernel.Launch
import proofs.«147983_j54030688584305_1_alg».proof.Proof.Gen.Kernel.Points
import proofs.«147983_j54030688584305_1_alg».proof.Proof.Gen.Kernel.Frame
import proofs.«147983_j54030688584305_1_alg».proof.Proof.Gen.KernelIdeal
import proofs.«147983_j54030688584305_1_alg».proof.Proof.Gen.KernelIdeal.Skeleton
import proofs.«147983_j54030688584305_1_alg».proof.Proof.Gen.KernelIdeal.Launch
import proofs.«147983_j54030688584305_1_alg».proof.Proof.Gen.KernelIdeal.Points
import proofs.«147983_j54030688584305_1_alg».proof.Proof.Gen.KernelIdeal.Frame
import proofs.«147983_j54030688584305_1_alg».proof.Proof.Gen.KernelIdeal.Value
import proofs.«147983_j54030688584305_1_alg».proof.Proof.Gen.ReferenceIdeal
import proofs.«147983_j54030688584305_1_alg».proof.Proof.Gen.ReferenceIdeal.Run
import proofs.«147983_j54030688584305_1_alg».proof.Proof.Gen.ReferenceIdeal.Read
import proofs.«147983_j54030688584305_1_alg».proof.Proof.Gen.Pre_finite_inputs
import proofs.«147983_j54030688584305_1_alg».proof.Proof.Dist
import proofs.«147983_j54030688584305_1_alg».proof.Proof.RefDist
import proofs.«147983_j54030688584305_1_alg».proof.Proof.Tile
import proofs.«147983_j54030688584305_1_alg».proof.Proof.Table
import Idealize.ShloMosaic.Adequacy
import Idealize.ShloMosaic.Init

noncomputable section

namespace Cert.Proof

open Idealize.ShloMosaic Idealize.ShloMosaic.TcCoe Idealize.SL.Sem

/-- The kernel as printed runs to the end and leaves the two families as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs to the end and leaves the two families as they were: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the two families, the kernel's result and the reference's result are both the table of
    squared distances of those families: the kernel's by its tiles filling the result, the reference's stage by stage. -/
theorem algebraic : Cert.algebraic_KernelIdeal_ReferenceIdeal := by
  intro m ρ m' ρ' _ hagree
  refine ⟨_, Cert.KernelIdeal.Table.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefDist.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
